-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S1x2048x128 : Shape := ⟨3, ![1, 2048, 128]⟩
abbrev S2048x128 : Shape := ⟨2, ![2048, 128]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S2048x2048_S2048 : S2048x2048.Reduces [1] S2048
  shapeCasts_S2048_S2048x1 : S2048.ShapeCasts S2048x1
  broadcasts_S2048x1_S2048x2048 : S2048x1.Broadcasts S2048x2048
  broadcasts_S2048x1_S2048x128 : S2048x1.Broadcasts S2048x128
  shapeCasts_S2048x128_S1x2048x128 : S2048x128.ShapeCasts S1x2048x128
  dot_S2048x128_S2048x128_S2048x2048_1_1_0_0_n_n_wf : DotDims.WF S2048x128 S2048x128 S2048x2048 [1] [1] [0] [0] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .f32 = 32 ∨ (Rect.block (s := S16x2048x128) S1x2048x128.size (cc0_transform_3 i) (hinb0_3 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Finite.lean ====
/-
  What the precondition says: every entry of the three argument arrays is a real number.

  The precondition is the conjunction, over the three arrays, of "every |x| is below +∞". Each conjunct is a
  reduction by `and` over all three axes that came out true, so every compared entry is true; and an extended
  real whose absolute value is below +∞ is neither infinity.
-/
import proofs.«431400_j39676907881620_3_alg».proof.Pre_finite_inputs
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

variable [Cert.Pre_finite_inputs.Facts]

instance : Subsingleton S_.Idx := ⟨fun a b => funext fun d => d.elim0⟩

/-- An extended real whose absolute value is below the word of +∞ is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  induction x using EReal.rec with
  | bot => exact absurd h (by simp [Ideal.cmpf_def, Ideal.absf_def, Ideal.cmp, Ideal.ofBits, Ideal.ieee])
  | top => exact absurd h (by simp [Ideal.cmpf_def, Ideal.absf_def, Ideal.cmp, Ideal.ofBits, Ideal.ieee])
  | coe r => exact ⟨r, rfl⟩

/-- Under the precondition every entry of every argument is a real. -/
theorem all_real (q k v : FVec Ideal S16x2048x128 .f32) (h : fn (F := Ideal) q k v = fun _ => 1#1) :
    (∀ x, ∃ r : ℝ, q x = (r : EReal)) ∧ (∀ x, ∃ r : ℝ, k x = (r : EReal)) ∧ (∀ x, ∃ r : ℝ, v x = (r : EReal)) := by
  have h0 := congrFun h ValueIdx.ix0
  unfold fn at h0
  dsimp only at h0
  obtain ⟨h01, h2⟩ := IntOp.andi_eq_one.1 h0
  obtain ⟨h0', h1⟩ := IntOp.andi_eq_one.1 h01
  refine ⟨fun x => ?_, fun x => ?_, fun x => ?_⟩
  · exact real_of_abs_lt _ (Host.reduce_andi_all _ _ _ _ _ h0' x)
  · exact real_of_abs_lt _ (Host.reduce_andi_all _ _ _ _ _ h1 x)
  · exact real_of_abs_lt _ (Host.reduce_andi_all _ _ _ _ _ h2 x)

end Cert.Finite

end
-- ==== Proof.Softmax.lean ====
/-
  Softmax-weighted averages over the extended reals, for finite data.

  A row of attention takes a query row `a`, key rows `K j`, a column of values `v j` and a scale `c`. The
  score of key `j` is the inner product of `a` and `K j` times `c`; the weight of key `j` is the exponential
  of its score minus the largest score; the result is the weighted average of the `v j`.
  Two arrangements of that computation are compared here:
    * the scale applied to the query row before the inner product, and the normalising sum divided out of the
      weighted sum at the end;
    * the scale applied to the finished inner product, and each weight divided by the normalising sum before
      it multiplies its value.
  On the extended reals these differ in general (a factor does not move across a sum of infinities); for
  real data they agree: both steps are distributivity in ℝ, the largest score is a real because there is at
  least one key, every weight is a positive real, and so the normalising sum is a nonzero real.
-/
import Idealize.ShloMosaic.PureOps.Ideal

noncomputable section

open scoped BigOperators

namespace Cert.Softmax

open Idealize.ShloMosaic

variable {ι δ : Type} [Fintype ι] [Fintype δ]

/-! ## The two arrangements -/

/-- The score of key `j`, the scale applied to the query row first. -/
def scoreIn (a : δ → EReal) (K : ι → δ → EReal) (c : EReal) (j : ι) : EReal := ∑ d, (a d * c) * K j d

/-- The score of key `j`, the scale applied to the inner product. -/
def scoreOut (a : δ → EReal) (K : ι → δ → EReal) (c : EReal) (j : ι) : EReal := (∑ d, a d * K j d) * c

/-- The largest score, as a fold of `max` from −∞. -/
def rowMax (s : ι → EReal) : EReal := (Finset.univ : Finset ι).fold max ⊥ s

/-- The unnormalised weight of key `j`. -/
def weight (s : ι → EReal) (j : ι) : EReal := Ideal.exp (s j - rowMax s)

/-- The weighted sum divided by the normalising sum. -/
def averageLate (s : ι → EReal) (v : ι → EReal) : EReal :=
  Ideal.div (∑ j, weight s j * v j) (∑ j, weight s j)

/-- The sum of the values times their normalised weights. -/
def averageEarly (s : ι → EReal) (v : ι → EReal) : EReal :=
  ∑ j, Ideal.div (weight s j) (∑ j', weight s j') * v j

/-! ## Real sums inside the extended reals -/

/-- The inclusion of ℝ commutes with finite sums. -/
theorem coe_sum {α : Type} (s : Finset α) (f : α → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- For real data the scale moves out of the inner product, and the score is a real. -/
theorem scoreIn_real (a : δ → ℝ) (b : δ → ℝ) (c : ℝ) :
    ∑ d, ((a d : EReal) * (c : EReal)) * (b d : EReal) = (((∑ d, a d * b d) * c : ℝ) : EReal) := by
  simp only [← EReal.coe_mul]
  rw [← coe_sum, Finset.sum_mul]
  exact congrArg _ (Finset.sum_congr rfl fun d _ => by ring)

theorem scoreOut_real (a : δ → ℝ) (b : δ → ℝ) (c : ℝ) :
    (∑ d, (a d : EReal) * (b d : EReal)) * (c : EReal) = (((∑ d, a d * b d) * c : ℝ) : EReal) := by
  simp only [← EReal.coe_mul]
  rw [← coe_sum, ← EReal.coe_mul]

/-- The fold of `max` from −∞ over a nonempty set of reals is a real. -/
theorem fold_max_real {α : Type} (s : Finset α) (hs : s.Nonempty) (f : α → ℝ) :
    ∃ r : ℝ, s.fold max (⊥ : EReal) (fun j => (f j : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- The exponential of a difference of reals is the positive real it should be. -/
theorem exp_sub_real (x y : ℝ) : Ideal.exp ((x : EReal) - (y : EReal)) = ((Real.exp (x - y) : ℝ) : EReal) := by
  rw [← EReal.coe_sub, Ideal.exp_coe]

/-! ## Dividing late or early -/

/-- For real weights with a nonzero sum and real values, dividing the weighted sum by the total is summing
    the values times the divided weights. -/
theorem div_sum_real (p : ι → ℝ) (v : ι → ℝ) (hp : (∑ j, p j) ≠ 0) :
    Ideal.div (∑ j, (p j : EReal) * (v j : EReal)) (∑ j, (p j : EReal))
      = ∑ j, Ideal.div (p j : EReal) (∑ j', (p j' : EReal)) * (v j : EReal) := by
  rw [← coe_sum Finset.univ p]
  simp only [Ideal.div_coe hp, ← EReal.coe_mul]
  rw [← coe_sum, ← coe_sum, ← EReal.coe_mul, Finset.sum_mul]
  exact congrArg _ (Finset.sum_congr rfl fun j _ => by ring)

/-- THE LAW. For a real query row, real keys, real values and a real scale, over at least one key: the average
    with the scale applied first and the division last is the average with the scale applied to the inner
    products and the weights normalised before they are used. -/
theorem average_eq [Nonempty ι] (a : δ → EReal) (K : ι → δ → EReal) (v : ι → EReal) (c : EReal)
    (ha : ∀ d, ∃ r : ℝ, a d = r) (hK : ∀ j d, ∃ r : ℝ, K j d = r) (hv : ∀ j, ∃ r : ℝ, v j = r)
    (hc : ∃ r : ℝ, c = r) :
    averageLate (scoreIn a K c) v = averageEarly (scoreOut a K c) v := by
  choose ar har using ha
  choose Kr hKr using hK
  choose vr hvr using hv
  obtain ⟨cr, rfl⟩ := hc
  obtain rfl : a = fun d => (ar d : EReal) := funext har
  obtain rfl : K = fun j d => (Kr j d : EReal) := funext fun j => funext fun d => hKr j d
  obtain rfl : v = fun j => (vr j : EReal) := funext hvr
  -- the scores, one real per key, in either arrangement
  have hin : scoreIn (fun d => (ar d : EReal)) (fun j d => (Kr j d : EReal)) (cr : EReal)
      = fun j => (((∑ d, ar d * Kr j d) * cr : ℝ) : EReal) := funext fun j => scoreIn_real ar (Kr j) cr
  have hout : scoreOut (fun d => (ar d : EReal)) (fun j d => (Kr j d : EReal)) (cr : EReal)
      = fun j => (((∑ d, ar d * Kr j d) * cr : ℝ) : EReal) := funext fun j => scoreOut_real ar (Kr j) cr
  rw [hin, hout]
  -- the largest of them, a real
  obtain ⟨mr, hm⟩ := fold_max_real (Finset.univ : Finset ι) Finset.univ_nonempty fun j => (∑ d, ar d * Kr j d) * cr
  -- the weights, positive reals
  have hw : weight (fun j => (((∑ d, ar d * Kr j d) * cr : ℝ) : EReal))
      = fun j => ((Real.exp ((∑ d, ar d * Kr j d) * cr - mr) : ℝ) : EReal) := funext fun j => by
    unfold weight rowMax
    rw [hm, exp_sub_real]
  unfold averageLate averageEarly
  rw [hw]
  exact div_sum_real _ vr (ne_of_gt (Finset.sum_pos (fun j _ => Real.exp_pos _) Finset.univ_nonempty))

end Cert.Softmax

end
-- ==== Proof.Attention.lean ====
/-
  Scaled dot-product attention over [16, 2048, 128] arrays, as one function of the three argument arrays,
  index by index, in the two arrangements of Softmax.lean.

  At output index (b, i, e) the query row is q[b, i, :], the keys are the rows k[b, j, :], the values are the
  column v[b, :, e], and the scale is the single-precision number nearest 1/√128 — a dyadic rational, the same
  word in both programs, so its value is never needed: only that it is finite.
-/
import Idealize.ShloMosaic.Lib.ValueIdx
import proofs.«431400_j39676907881620_3_alg».proof.Proof.Softmax

noncomputable section

open scoped BigOperators

namespace Cert.Attention

open Idealize.ShloMosaic Idealize.ShloMosaic.ValueIdx Cert.Softmax

/-- The shape of each argument and of the result. -/
abbrev Arr : Shape := ⟨3, ![16, 2048, 128]⟩

/-- The scale both programs spell. -/
def scale : EReal := Ideal.ofBits .f32 0x3DB504F3#32

/-- It is a finite number. -/
theorem scale_real : ∃ r : ℝ, scale = (r : EReal) := by
  unfold scale
  simp [Ideal.ofBits, Ideal.ieee, -EReal.coe_mul]

/-- Row `i` of batch `b` of the queries. -/
def qRow (q : Arr.Idx → EReal) (b : Fin 16) (i : Fin 2048) : Fin 128 → EReal := fun d => q (ix3 b i d)

/-- The key rows of batch `b`. -/
def kRows (k : Arr.Idx → EReal) (b : Fin 16) : Fin 2048 → Fin 128 → EReal := fun j d => k (ix3 b j d)

/-- Column `e` of batch `b` of the values. -/
def vCol (v : Arr.Idx → EReal) (b : Fin 16) (e : Fin 128) : Fin 2048 → EReal := fun j => v (ix3 b j e)

/-- Attention with the queries scaled first and the normalising sum divided out last. -/
def attnLate (q k v : Arr.Idx → EReal) : Arr.Idx → EReal := fun x =>
  averageLate (scoreIn (qRow q (x 0) (x 1)) (kRows k (x 0)) scale) (vCol v (x 0) (x 2))

/-- Attention with the inner products scaled and the weights normalised before use. -/
def attnEarly (q k v : Arr.Idx → EReal) : Arr.Idx → EReal := fun x =>
  averageEarly (scoreOut (qRow q (x 0) (x 1)) (kRows k (x 0)) scale) (vCol v (x 0) (x 2))

/-- On finite arrays the two are one function. -/
theorem attnLate_eq_attnEarly (q k v : Arr.Idx → EReal) (hq : ∀ x, ∃ r : ℝ, q x = r) (hk : ∀ x, ∃ r : ℝ, k x = r)
    (hv : ∀ x, ∃ r : ℝ, v x = r) : attnLate q k v = attnEarly q k v := by
  haveI : Nonempty (Fin 2048) := ⟨⟨0, by decide⟩⟩
  exact funext fun x => average_eq _ _ _ _ (fun d => hq _) (fun j d => hk _) (fun j => hv _) scale_real

end Cert.Attention

end
-- ==== Proof.KernelOps.lean ====
/-
  The kernel body's operations that are not pointwise, each read at coordinates.

  * The score product contracts the last axis of both operands ("rows against rows"): at (r, j) it is the sum over
    d of a(r, d) · b(j, d).
  * The value product is the plain one: at (r, e) the sum over j of p(r, j) · w(j, e).
  * A row's maximum, kept as a column and spread back over the row, is at every (r, j) the fold of `max` from −∞
    over row r; a row's sum, kept as a column and spread over 128 columns, is at every (r, e) the sum of row r.
  Each contraction's own index type has one axis; its sum is re-indexed through the bijection with the inner
  coordinate, and the operands' indices are computed axis by axis.
-/
import proofs.«431400_j39676907881620_3_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Ops

open Cert.KernelIdeal Cert.KernelIdeal.Gen Idealize.ShloMosaic Idealize.ShloMosaic.ValueIdx

/-! ## The score product: rows against rows -/

theorem lhs_scores_0 (i : S2048x2048.Idx) (q : dot_S2048x128_S2048x128_S2048x2048_1_1_0_0_n_n.contr.Idx) :
    (dot_S2048x128_S2048x128_S2048x2048_1_1_0_0_n_n.lhsIdx i q 0).val = (i 0).val := by
  unfold DotDims.lhsIdx
  rw [dif_neg (show ¬(0 : Fin S2048x128.rank) ∈ dot_S2048x128_S2048x128_S2048x2048_1_1_0_0_n_n.lhsBatch by decide), dif_pos (show (0 : Fin S2048x128.rank) ∈ dot_S2048x128_S2048x128_S2048x2048_1_1_0_0_n_n.lhsNonContracting by decide)]
  rfl
theorem lhs_scores_1 (i : S2048x2048.Idx) (q : dot_S2048x128_S2048x128_S2048x2048_1_1_0_0_n_n.contr.Idx) :
    (dot_S2048x128_S2048x128_S2048x2048_1_1_0_0_n_n.lhsIdx i q 1).val = (q ⟨0, by decide⟩).val :=
  dot_S2048x128_S2048x128_S2048x2048_1_1_0_0_n_n.lhsIdx_val_of_single rfl i q
theorem rhs_scores_0 (i : S2048x2048.Idx) (q : dot_S2048x128_S2048x128_S2048x2048_1_1_0_0_n_n.contr.Idx) :
    (dot_S2048x128_S2048x128_S2048x2048_1_1_0_0_n_n.rhsIdx i q 0).val = (i 1).val := by
  unfold DotDims.rhsIdx
  rw [dif_neg (show ¬(0 : Fin S2048x128.rank) ∈ dot_S2048x128_S2048x128_S2048x2048_1_1_0_0_n_n.rhsBatch by decide), dif_pos (show (0 : Fin S2048x128.rank) ∈ dot_S2048x128_S2048x128_S2048x2048_1_1_0_0_n_n.rhsNonContracting by decide)]
  rfl
theorem rhs_scores_1 (i : S2048x2048.Idx) (q : dot_S2048x128_S2048x128_S2048x2048_1_1_0_0_n_n.contr.Idx) :
    (dot_S2048x128_S2048x128_S2048x2048_1_1_0_0_n_n.rhsIdx i q 1).val = (q ⟨0, by decide⟩).val :=
  dot_S2048x128_S2048x128_S2048x2048_1_1_0_0_n_n.rhsIdx_val_of_single rfl i q

/-- The product of `a` with the transpose of `b`, into the zero accumulator, at (r, j). -/
theorem scores_apply (a b : FVec Ideal S2048x128 .bf16) (r j : Fin 2048) :
    matmul dot_S2048x128_S2048x128_S2048x2048_1_1_0_0_n_n none a b (constant S2048x2048 .f32 0x00000000#32) (ix2 r j)
      = ∑ d : Fin 128, a (ix2 r d) * b (ix2 j d) := by
  simp only [matmul]
  rw [Ideal.matmul_constant_zero_apply, ← Equiv.sum_comp (contrEquiv1 dot_S2048x128_S2048x128_S2048x2048_1_1_0_0_n_n 128 rfl rfl).symm]
  refine Finset.sum_congr rfl fun k _ => ?_
  have hk := contrEquiv1_symm_val dot_S2048x128_S2048x128_S2048x2048_1_1_0_0_n_n 128 rfl rfl k
  have el : dot_S2048x128_S2048x128_S2048x2048_1_1_0_0_n_n.lhsIdx (ix2 r j) ((contrEquiv1 dot_S2048x128_S2048x128_S2048x2048_1_1_0_0_n_n 128 rfl rfl).symm k) = ix2 r k := funext fun a => Fin.ext (by
    match a with
    | ⟨0, _⟩ => exact lhs_scores_0 _ _
    | ⟨1, _⟩ => exact (lhs_scores_1 _ _).trans hk)
  have er : dot_S2048x128_S2048x128_S2048x2048_1_1_0_0_n_n.rhsIdx (ix2 r j) ((contrEquiv1 dot_S2048x128_S2048x128_S2048x2048_1_1_0_0_n_n 128 rfl rfl).symm k) = ix2 j k := funext fun a => Fin.ext (by
    match a with
    | ⟨0, _⟩ => exact rhs_scores_0 _ _
    | ⟨1, _⟩ => exact (rhs_scores_1 _ _).trans hk)
  rw [el, er]

/-! ## The value product: rows against columns -/

theorem lhs_values_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs_values_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhs_values_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhs_values_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The product of the weights with the values, into the zero accumulator, at (r, e). -/
theorem values_apply (p : FVec Ideal S2048x2048 .bf16) (w : FVec Ideal S2048x128 .bf16) (r : Fin 2048) (e : Fin 128) :
    matmul dot_S2048x2048_S2048x128_S2048x128_1_0_0_1_n_n none p w (constant S2048x128 .f32 0x00000000#32) (ix2 r e)
      = ∑ j : Fin 2048, p (ix2 r j) * w (ix2 j e) := by
  simp only [matmul]
  rw [Ideal.matmul_constant_zero_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 r e) ((contrEquiv1 dot_S2048x2048_S2048x128_S2048x128_1_0_0_1_n_n 2048 rfl rfl).symm k) = ix2 r k := funext fun a => Fin.ext (by
    match a with
    | ⟨0, _⟩ => exact lhs_values_0 _ _
    | ⟨1, _⟩ => exact (lhs_values_1 _ _).trans hk)
  have er : dot_S2048x2048_S2048x128_S2048x128_1_0_0_1_n_n.rhsIdx (ix2 r e) ((contrEquiv1 dot_S2048x2048_S2048x128_S2048x128_1_0_0_1_n_n 2048 rfl rfl).symm k) = ix2 k e := funext fun a => Fin.ext (by
    match a with
    | ⟨0, _⟩ => exact (rhs_values_0 _ _).trans hk
    | ⟨1, _⟩ => exact rhs_values_1 _ _)
  rw [el, er]

/-! ## A row statistic kept as a column and spread back -/

/-- A vector of 2048 entries cast to one column, read at (r, 0), is entry r. -/
theorem column_apply {α : Type} (x : S2048.Idx → α) (h : S2048.ShapeCasts S2048x1) (r : Fin 2048) (u : Fin 1) :
    shapeCast S2048x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- One column spread over `n` columns reads, at (r, c), the column's entry r. -/
theorem spread_apply {α : Type} {n : Nat} (x : S2048x1.Idx → α) (h : S2048x1.Broadcasts ⟨2, ![2048, n]⟩) (r : Fin 2048) (c : Fin n) :
    broadcastTo ⟨2, ![2048, n]⟩ x h (ix2 r c) = x (ix2 r (0 : Fin 1)) := by
  refine broadcastTo_apply x h (ix2 r c) (ix2 r (0 : Fin 1)) fun ax => ?_
  match ax with
  | ⟨0, _⟩ => rfl
  | ⟨1, _⟩ => rfl

/-- Row r's reduced index with column j put back is (r, j). -/
theorem lift_row (h : S2048x2048.Reduces [1] S2048) (r : Fin 2048) (j : Fin (S2048x2048.size 1)) :
    h.lift (ix1 r) j = ix2 r (⟨j.val, j.isLt⟩ : Fin 2048) := by
  funext c; apply Fin.ext
  fin_cases c <;> rfl

theorem negInf : Ideal.ofBits .f32 0xFF800000#32 = (⊥ : EReal) := by
  simp [Ideal.ofBits, Ideal.ieee]

/-- The row maximum, spread back over the row. -/
theorem rowmax_apply (s : FVec Ideal S2048x2048 .f32) (h : S2048x2048.Reduces [1] S2048) (hφ : FKind.Formats .f32)
    (hacc : (0xFF800000#32 : BitVec 32) = FKind.maximumf.neutral .f32 hφ) (h1 : S2048.ShapeCasts S2048x1)
    (h2 : S2048x1.Broadcasts S2048x2048) (r j : Fin 2048) :
    broadcastTo S2048x2048 (shapeCast S2048x1 (multiReduction .maximumf [1] S2048 s 0xFF800000#32 h hφ hacc) h1) h2 (ix2 r j)
      = (Finset.univ : Finset (Fin 2048)).fold max (⊥ : EReal) (fun j' => s (ix2 r j')) := by
  rw [spread_apply, column_apply, Ideal.multiReduction_maximumf_single]
  have hf : (s ∘ h.lift (ix1 r)) = fun j' : Fin 2048 => s (ix2 r j') := funext fun j' => by
    show s (h.lift (ix1 r) j') = _
    rw [lift_row]
    rfl
  rw [hf]
  show Finset.fold max (Ideal.ofBits .f32 0xFF800000#32) _ _ = _
  rw [negInf]
  rfl

/-- The row sum, spread over the 128 columns of the result. -/
theorem rowsum_apply (p : FVec Ideal S2048x2048 .f32) (h : S2048x2048.Reduces [1] S2048) (hφ : FKind.Formats .f32)
    (hacc : (0x00000000#32 : BitVec 32) = FKind.add.neutral .f32 hφ) (h1 : S2048.ShapeCasts S2048x1)
    (h2 : S2048x1.Broadcasts S2048x128) (r : Fin 2048) (e : Fin 128) :
    broadcastTo S2048x128 (shapeCast S2048x1 (multiReduction .add [1] S2048 p 0x00000000#32 h hφ hacc) h1) h2 (ix2 r e)
      = ∑ j : Fin 2048, p (ix2 r j) := by
  rw [spread_apply, column_apply, Ideal.multiReduction_add_single]
  refine Finset.sum_congr rfl fun j' _ => ?_
  rw [lift_row]
  rfl

end Cert.KernelIdeal.Ops

end
-- ==== Proof.KernelValue.lean ====
/-
  What the kernel leaves in its result array: attention in the "late" arrangement.

  The grid has one point per batch element. At point t the body loads block t of each argument — the [2048, 128]
  matrices q[t], k[t], v[t] — scales the queries, takes the scores of every query row against every key row,
  each row's largest score, the exponentials of the differences, their row sums, the product of the unnormalised
  weights with the values, and divides each row of that product by the row's sum; it stores the quotient as block
  t of the result. The sixteen blocks tile the result array, so the array ends holding, at (b, i, e), the late
  average of row (b, i) against column (b, e).
-/
import proofs.«431400_j39676907881620_3_alg».proof.Proof.Gen.KernelIdeal.Value
import proofs.«431400_j39676907881620_3_alg».proof.Proof.Attention
import proofs.«431400_j39676907881620_3_alg».proof.Proof.KernelOps
import Idealize.ShloMosaic.Lib.Pipeline.Value

noncomputable section

open scoped BigOperators

namespace Cert.KernelIdeal.Hand

open Cert.KernelIdeal Cert.KernelIdeal.Gen Cert.KernelIdeal.Value Cert.KernelIdeal.Ops
open Idealize.ShloMosaic Idealize.ShloMosaic.TcCoe Idealize.SL.Sem Idealize.ShloMosaic.ValueIdx
open Idealize.ShloMosaic.Pipeline (Dat)
open Cert.Softmax Cert.Attention

/-! ## The body's arithmetic on one block -/

/-- The weights of row r: the exponentials of the scores less the row's largest, at (r, j). -/
theorem weights_apply (s : FVec Ideal S2048x2048 .f32) (h : S2048x2048.Reduces [1] S2048) (hφ : FKind.Formats .f32)
    (hacc : (0xFF800000#32 : BitVec 32) = FKind.maximumf.neutral .f32 hφ) (h1 : S2048.ShapeCasts S2048x1)
    (h2 : S2048x1.Broadcasts S2048x2048) (r j : Fin 2048) :
    exp (subf s (broadcastTo S2048x2048 (shapeCast S2048x1 (multiReduction .maximumf [1] S2048 s 0xFF800000#32 h hφ hacc) h1) h2)) (ix2 r j)
      = weight (fun j' : Fin 2048 => s (ix2 r j')) j := by
  show Ideal.exp (s (ix2 r j) - broadcastTo S2048x2048 _ h2 (ix2 r j)) = _
  rw [rowmax_apply]
  rfl

/-- From the scores on: the weights' product with the values, each row divided by the weights' row sum, at (r, e),
    is the late average of row r's scores against column e of the values. -/
theorem tail_apply (s : FVec Ideal S2048x2048 .f32) (w : FVec Ideal S2048x128 .bf16) (h : S2048x2048.Reduces [1] S2048)
    (hφ : FKind.Formats .f32) (hacc : (0xFF800000#32 : BitVec 32) = FKind.maximumf.neutral .f32 hφ)
    (hφ' : FKind.Formats .f32) (hacc' : (0x00000000#32 : BitVec 32) = FKind.add.neutral .f32 hφ')
    (h1 : S2048.ShapeCasts S2048x1) (h2 : S2048x1.Broadcasts S2048x2048) (h3 : S2048x1.Broadcasts S2048x128)
    (hb : FTy.bits .bf16 < FTy.bits .f32) (r : Fin 2048) (e : Fin 128) :
    divf (matmul dot_S2048x2048_S2048x128_S2048x128_1_0_0_1_n_n none
            (truncf .bf16 (exp (subf s (broadcastTo S2048x2048 (shapeCast S2048x1 (multiReduction .maximumf [1] S2048 s 0xFF800000#32 h hφ hacc) h1) h2))) hb)
            w (constant S2048x128 .f32 0x00000000#32))
         (broadcastTo S2048x128 (shapeCast S2048x1 (multiReduction .add [1] S2048
            (exp (subf s (broadcastTo S2048x2048 (shapeCast S2048x1 (multiReduction .maximumf [1] S2048 s 0xFF800000#32 h hφ hacc) h1) h2)))
            0x00000000#32 h hφ' hacc') h1) h3) (ix2 r e)
      = averageLate (fun j : Fin 2048 => s (ix2 r j)) (fun j : Fin 2048 => w (ix2 j e)) := by
  rw [divf_apply, values_apply, rowsum_apply]
  unfold averageLate
  refine congrArg₂ Ideal.div ?_ ?_
  · exact Finset.sum_congr rfl fun j _ => by rw [truncf_apply, weights_apply]
  · exact Finset.sum_congr rfl fun j _ => weights_apply s h hφ hacc h1 h2 r j

/-- One block's attention: rows of the first block against rows of the second, averaged over the third. -/
def blockAttn (x0 x1 x2 : S1x2048x128.Idx → EReal) : S1x2048x128.Idx → EReal := fun y =>
  averageLate (scoreIn (fun d : Fin 128 => x0 (ix3 (0 : Fin 1) (y 1) d)) (fun (j : Fin 2048) (d : Fin 128) => x1 (ix3 (0 : Fin 1) j d)) scale)
    (fun j : Fin 2048 => x2 (ix3 (0 : Fin 1) j (y 2)))

/-- THE BODY'S STORED VALUE is the block's attention. -/
theorem pay_eq (x0 x1 x2 : Vec Ideal S1x2048x128 .f32) : k0_pay1 x0 x1 x2 = blockAttn x0 x1 x2 := by
  funext y
  obtain ⟨u, r, e, rfl⟩ : ∃ (u : Fin 1) (r : Fin 2048) (e : Fin 128), y = ix3 u r e := ⟨y 0, y 1, y 2, eq_ix3 y⟩
  unfold k0_pay1
  rw [shapeCast_ab_1ab_apply]
  refine (tail_apply _ _ _ _ _ _ _ _ _ _ _ r e).trans ?_
  unfold blockAttn
  refine congr (congrArg averageLate (funext fun j => ?_)) (funext fun j => ?_)
  · rw [scores_apply]
    unfold scoreIn
    refine Finset.sum_congr rfl fun d _ => ?_
    rw [truncf_apply, truncf_apply, mulf_apply, shapeCast_1ab_ab_apply, shapeCast_1ab_ab_apply, broadcast_apply]
    rfl
  · rw [truncf_apply, shapeCast_1ab_ab_apply]

/-! ## The blocks of the arguments -/

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point t is (t, 0, 0): decided over the sixteen points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The queries' block at point t is q[b] for the batch element b the point stands for. -/
theorem qblk_apply (c : Dev nD) (t : Fin cfg0.N) (b : Fin 16) (hb : b.val = t.val) (r : Fin 2048) (d : Fin 128) :
    (iblk m c 0 t : Vec Ideal S1x2048x128 .f32) (ix3 (0 : Fin 1) r d) = (V m c main_arg0 : S16x2048x128.Idx → EReal) (ix3 b r d) := by
  obtain ⟨⟨e0, e1, e2⟩, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = b.val; omega
  | ⟨1, _⟩ => show win0_0.index t (1 : Fin 3) * 2048 + 1 * r.val = r.val; omega
  | ⟨2, _⟩ => show win0_0.index t (2 : Fin 3) * 128 + 1 * d.val = d.val; omega

/-- The keys' block at point t is k[b]. -/
theorem kblk_apply (c : Dev nD) (t : Fin cfg0.N) (b : Fin 16) (hb : b.val = t.val) (r : Fin 2048) (d : Fin 128) :
    (iblk m c 1 t : Vec Ideal S1x2048x128 .f32) (ix3 (0 : Fin 1) r d) = (V m c main_arg1 : S16x2048x128.Idx → EReal) (ix3 b r d) := by
  obtain ⟨-, ⟨e0, e1, e2⟩, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * 0 = b.val; omega
  | ⟨1, _⟩ => show win0_1.index t (1 : Fin 3) * 2048 + 1 * r.val = r.val; omega
  | ⟨2, _⟩ => show win0_1.index t (2 : Fin 3) * 128 + 1 * d.val = d.val; omega

/-- The values' block at point t is v[b]. -/
theorem vblk_apply (c : Dev nD) (t : Fin cfg0.N) (b : Fin 16) (hb : b.val = t.val) (r : Fin 2048) (d : Fin 128) :
    (iblk m c 2 t : Vec Ideal S1x2048x128 .f32) (ix3 (0 : Fin 1) r d) = (V m c main_arg2 : S16x2048x128.Idx → EReal) (ix3 b r d) := by
  obtain ⟨-, -, ⟨e0, e1, e2⟩, -⟩ := idx_facts t
  unfold iblk
  rw [View.read_apply]
  show V m c main_arg2 _ = V m c main_arg2 _
  congr 1
  funext a; apply Fin.ext
  match a with
  | ⟨0, _⟩ => show win0_2.index t (0 : Fin 3) * 1 + 1 * 0 = b.val; omega
  | ⟨1, _⟩ => show win0_2.index t (1 : Fin 3) * 2048 + 1 * r.val = r.val; omega
  | ⟨2, _⟩ => show win0_2.index t (2 : Fin 3) * 128 + 1 * d.val = d.val; omega

/-! ## From the blocks to the array -/

/-- The attention of the argument arrays as the region finds them. -/
abbrev result (c : Dev nD) : S16x2048x128.Idx → EReal :=
  attnLate (V m c main_arg0) (V m c main_arg1) (V m c main_arg2)

theorem averageLate_congr {s s' v v' : Fin 2048 → EReal} (hs : s = s') (hv : v = v') : averageLate s v = averageLate s' v' := by
  rw [hs, hv]

theorem scoreIn_congr {a a' : Fin 128 → EReal} {K K' : Fin 2048 → Fin 128 → EReal} (c : EReal) (ha : a = a') (hK : K = K') :
    scoreIn a K c = scoreIn a' K' c := by
  rw [ha, hK]

/-- One block's attention, at the blocks of point t, is the whole-array attention at the batch element of t. -/
theorem blockAttn_at (c : Dev nD) (t : Fin cfg0.N) (b : Fin 16) (hb : b.val = t.val) (y : S1x2048x128.Idx) :
    blockAttn (iblk m c 0 t : Vec Ideal S1x2048x128 .f32) (iblk m c 1 t : Vec Ideal S1x2048x128 .f32) (iblk m c 2 t : Vec Ideal S1x2048x128 .f32) y
      = result m c (ix3 b (y 1) (y 2)) := by
  unfold blockAttn result attnLate
  exact averageLate_congr
    (scoreIn_congr scale (funext fun d => qblk_apply m c t b hb (y 1) d) (funext fun j => funext fun d => kblk_apply m c t b hb j d))
    (funext fun j => vblk_apply m c t b hb j (y 2))

/-- The batch element a grid point stands for. -/
def batchOf (t : Fin cfg0.N) : Fin 16 := ⟨t.val, Nat.lt_of_lt_of_eq t.isLt N_0⟩

/-- WHAT POINT t WRITES BACK is block t of the attention of the arguments. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1x2048x128) hz]
  rw [pay_eq]
  obtain ⟨-, -, -, ⟨e0, e1, e2⟩⟩ := idx_facts t
  funext y
  show blockAttn (iblk m c 0 t) (iblk m c 1 t) (iblk m c 2 t) y = result m c (((cfg0.win 3).blk t).view.emb y)
  refine (blockAttn_at m c t (batchOf t) rfl y).trans (congrArg (result m c) ?_)
  funext a; apply Fin.ext
  have hy0 : (y 0).val < 1 := (y 0).isLt
  match a with
  | ⟨0, _⟩ => show t.val = win0_3.index t (0 : Fin 3) * 1 + 1 * (y 0).val; omega
  | ⟨1, _⟩ => show (y 1).val = win0_3.index t (1 : Fin 3) * 2048 + 1 * (y 1).val; omega
  | ⟨2, _⟩ => show (y 2).val = win0_3.index t (2 : Fin 3) * 128 + 1 * (y 2).val; omega

/-- An index of the array is in point t's block iff each coordinate is in the block's range on its axis. -/
theorem mem_blk (t : Fin cfg0.N) (i : S16x2048x128.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v0).slice (win0_3.rect t)).set ↔ _
  rw [View.set_slice_whole, Rect.mem_set_unit]
  exact Iff.rfl

/-- Every index (b, i, e) of the result lies in the block of the point that stands for b. -/
theorem cover (i : S16x2048x128.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  let t : Fin cfg0.N := ⟨(i 0).val, Nat.lt_of_lt_of_eq hi0 N_0.symm⟩
  obtain ⟨-, -, -, ⟨e0, e1, e2⟩⟩ := idx_facts t
  have ht : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- THE RESULT ARRAY after the run is the attention of the arguments. -/
theorem final (c : Dev nD) : (dats m 0 c).arrAt 3 cfg0.N = result m c :=
  (dats m 0 c).arrAt_eq_of_cover 3 (result m c) (fun t _ => flushed_eq m c t) cover

/-- The run, read: the result array at the attention of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefValue.lean ====
/-
  The reference computes attention in the "early" arrangement: it scales the finished inner products, takes each
  row's largest score, exponentiates the differences, sums them, divides every weight by that sum, and only then
  contracts the normalised weights with the values.

  Each stage of the reference is read at an index; the stages are then recognised, one after the other, as the
  scores, the row maximum, the weights and the normalising sum of Softmax.lean at the rows of Attention.lean.
  The row maximum is a fold of `max` from the word of −∞, joined once more with −∞: both are the identity for `max`.
-/
import proofs.«431400_j39676907881620_3_alg».proof.Proof.Gen.ReferenceIdeal.Read
import proofs.«431400_j39676907881620_3_alg».proof.Proof.Attention
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Softmax Cert.Attention

variable (x0 x1 x2 : (⟨S16x2048x128, .f32⟩ : BufTy).Contents (Elt Ideal))

/-! ## The word of −∞ -/

theorem negInf : Ideal.ofBits .f32 0xFF800000#32 = (⊥ : EReal) := by
  simp [Ideal.ofBits, Ideal.ieee]

/-! ## The index maps of the stages, at coordinates -/

theorem lidx_scores (b : Fin 16) (r j : Fin 2048) (d : Fin 128) : lidx_main_v0 (ix3 b r j) d = ix3 b r d :=
  funext fun a => Fin.ext (by match a with | ⟨0, _⟩ => rfl | ⟨1, _⟩ => rfl | ⟨2, _⟩ => rfl)

theorem ridx_scores (b : Fin 16) (r j : Fin 2048) (d : Fin 128) : ridx_main_v0 (ix3 b r j) d = ix3 b j d :=
  funext fun a => Fin.ext (by match a with | ⟨0, _⟩ => rfl | ⟨1, _⟩ => rfl | ⟨2, _⟩ => rfl)

theorem idx_keepdims (b : Fin 16) (r j : Fin 2048) : idx_main_v6 (idx_main_v7 (ix3 b r j)) = ix2 b r :=
  funext fun a => Fin.ext (by match a with | ⟨0, _⟩ => rfl | ⟨1, _⟩ => rfl)

theorem idx_keepdims' (b : Fin 16) (r j : Fin 2048) : idx_main_v11 (idx_main_v12 (ix3 b r j)) = ix2 b r :=
  funext fun a => Fin.ext (by match a with | ⟨0, _⟩ => rfl | ⟨1, _⟩ => rfl)

theorem idx_rowsum (b : Fin 16) (r j : Fin 2048) : idx_main_v10 (ix2 b r) j = ix3 b r j :=
  funext fun a => Fin.ext (by match a with | ⟨0, _⟩ => rfl | ⟨1, _⟩ => rfl | ⟨2, _⟩ => rfl)

theorem lidx_out (b : Fin 16) (r : Fin 2048) (e : Fin 128) (j : Fin 2048) : lidx_main_v14 (ix3 b r e) j = ix3 b r j :=
  funext fun a => Fin.ext (by match a with | ⟨0, _⟩ => rfl | ⟨1, _⟩ => rfl | ⟨2, _⟩ => rfl)

theorem ridx_out (b : Fin 16) (r : Fin 2048) (e : Fin 128) (j : Fin 2048) : ridx_main_v14 (ix3 b r e) j = ix3 b j e :=
  funext fun a => Fin.ext (by match a with | ⟨0, _⟩ => rfl | ⟨1, _⟩ => rfl | ⟨2, _⟩ => rfl)

/-- Putting key `j` back into the reduced index (b, r) gives (b, r, j). -/
theorem lift_row (h : S16x2048x2048.Reduces [2] S16x2048) (b : Fin 16) (r : Fin 2048) (j : Fin (S16x2048x2048.size 2)) :
    h.lift (ix2 b r) j = ix3 b r (⟨j.val, j.isLt⟩ : Fin 2048) := by
  funext c; apply Fin.ext
  fin_cases c <;> rfl

/-! ## The stages -/

/-- The scaled inner product of query row (b, r) with key row (b, j). -/
theorem scores_at (b : Fin 16) (r j : Fin 2048) :
    val_main_v2 (F := Ideal) x0 x1 (ix3 b r j) = scoreOut (qRow x0 b r) (kRows x1 b) scale j := by
  rw [val_main_v2_apply, val_main_v0_apply, val_main_v1_apply, val_main_cst_apply]
  simp only [lidx_scores, ridx_scores]
  rfl

/-- The largest score of row (b, r). -/
theorem rowmax_at (b : Fin 16) (r : Fin 2048) :
    val_main_v5 (F := Ideal) x0 x1 (ix2 b r) = rowMax (scoreOut (qRow x0 b r) (kRows x1 b) scale) := by
  rw [val_main_v5_apply, val_main_v4_apply, val_main_cst_1_apply]
  unfold val_main_v3
  rw [Host.reduce_eq_fold_single FloatOps.maximumf _ _ reducesTo_S16x2048x2048_S16x2048_d2 (by decide) h_S_]
  have hf : (val_main_v2 (F := Ideal) x0 x1 ∘ (by decide : S16x2048x2048.Reduces [2] S16x2048).lift (ix2 b r))
      = fun j : Fin 2048 => scoreOut (qRow x0 b r) (kRows x1 b) scale j := funext fun j => by
    show val_main_v2 (F := Ideal) x0 x1 (_) = _
    rw [lift_row, scores_at]
    rfl
  rw [hf]
  show max (Ideal.ofBits .f32 0xFF800000#32) (Finset.fold max (Ideal.ofBits .f32 0xFF800000#32) _ _) = _
  rw [negInf, max_bot_left]
  rfl

/-- The weight of key `j` in row (b, r). -/
theorem weight_at (b : Fin 16) (r j : Fin 2048) :
    val_main_v9 (F := Ideal) x0 x1 (ix3 b r j) = weight (scoreOut (qRow x0 b r) (kRows x1 b) scale) j := by
  rw [val_main_v9_apply, val_main_v8_apply, val_main_v7_apply, val_main_v6_apply, idx_keepdims, scores_at, rowmax_at]
  rfl

/-- The normalising sum of row (b, r), as every entry of the row reads it. -/
theorem norm_at (b : Fin 16) (r j : Fin 2048) :
    val_main_v12 (F := Ideal) x0 x1 (ix3 b r j) = ∑ j', weight (scoreOut (qRow x0 b r) (kRows x1 b) scale) j' := by
  rw [val_main_v12_apply, val_main_v11_apply, idx_keepdims', val_main_v10_apply, val_main_cst_2_apply]
  simp only [idx_rowsum, weight_at]
  show Ideal.ofBits .f32 0x00000000#32 + _ = _
  rw [Ideal.ofBits_zero_f32, zero_add]

/-- THE REFERENCE'S RESULT is attention in the early arrangement. -/
theorem ref_eq : val_main_v14 (F := Ideal) x0 x1 x2 = attnEarly x0 x1 x2 := by
  funext i
  obtain ⟨b, r, e, rfl⟩ : ∃ (b : Fin 16) (r : Fin 2048) (e : Fin 128), i = ix3 b r e := ⟨i 0, i 1, i 2, eq_ix3 i⟩
  rw [val_main_v14_apply]
  unfold attnEarly averageEarly
  refine Finset.sum_congr rfl fun j _ => ?_
  rw [lidx_out, ridx_out, val_main_v13_apply, weight_at, norm_at]
  rfl

end Cert.ReferenceIdeal.RefValue

end
-- ==== Proof.lean ====
/-
  Single-tile attention against the einsum–softmax–einsum reference, over the extended reals.

  Kernel (one grid point per batch element b): out[b] = (exp(S − rowmax S) · v[b]) / rowsum(exp(S − rowmax S)) with
  S = (q[b] · c) k[b]ᵀ. Reference: S' = (q k ᵀ) · c over all batches, the softmax of S' along the keys, then its
  product with v. The same word c (the single-precision number nearest 1/√128) appears in both.
  For finite arguments the two agree exactly: the scale moves out of the inner product and the division moves
  into the weighted sum, both by distributivity over reals; the row maximum is a real because a row has keys, the
  weights are positive reals, so the normalising sum is a nonzero real (Softmax.lean). The precondition says the
  arguments are finite (Finite.lean); the kernel's result array is the late arrangement (KernelValue.lean, over
  the generated blockwise value leg), the reference's the early one (RefValue.lean, over the generated run and
  its read-at-an-index lemmas). The idealization rewrote nothing, so its ledger is empty.
-/
import proofs.«431400_j39676907881620_3_alg».proof.Defs
import proofs.«431400_j39676907881620_3_alg».proof.Proof.Gen.Kernel
import proofs.«431400_j39676907881620_3_alg».proof.Proof.Gen.Kernel.Skeleton
import proofs.«431400_j39676907881620_3_alg».proof.Proof.Gen.Kernel.Launch
import proofs.«431400_j39676907881620_3_alg».proof.Proof.Gen.Kernel.Points
import proofs.«431400_j39676907881620_3_alg».proof.Proof.Gen.Kernel.Frame
import proofs.«431400_j39676907881620_3_alg».proof.Proof.Gen.KernelIdeal
import proofs.«431400_j39676907881620_3_alg».proof.Proof.Gen.KernelIdeal.Skeleton
import proofs.«431400_j39676907881620_3_alg».proof.Proof.Gen.KernelIdeal.Launch
import proofs.«431400_j39676907881620_3_alg».proof.Proof.Gen.KernelIdeal.Points
import proofs.«431400_j39676907881620_3_alg».proof.Proof.Gen.KernelIdeal.Frame
import proofs.«431400_j39676907881620_3_alg».proof.Proof.Gen.ReferenceIdeal
import proofs.«431400_j39676907881620_3_alg».proof.Proof.Gen.Pre_finite_inputs
import proofs.«431400_j39676907881620_3_alg».proof.Proof.Gen.KernelIdeal.Value
import proofs.«431400_j39676907881620_3_alg».proof.Proof.Gen.ReferenceIdeal.Run
import proofs.«431400_j39676907881620_3_alg».proof.Proof.Gen.ReferenceIdeal.Read
import proofs.«431400_j39676907881620_3_alg».proof.Proof.Finite
import proofs.«431400_j39676907881620_3_alg».proof.Proof.KernelValue
import proofs.«431400_j39676907881620_3_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on finite arguments the kernel ends at the late arrangement of attention and the
    reference at the early one, which are one function there. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2.1, (hagree c).2.2]
  obtain ⟨hq, hk, hv⟩ := Cert.Finite.all_real _ _ _ (hpre c)
  exact (Cert.Attention.attnLate_eq_attnEarly _ _ _ hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
